-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S128x512 : Shape := ⟨2, ![128, 512]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S65536x512 .f32) (main_arg1 : FVec F S128x512 .f32) (main_arg2 : FVec F S128 .f32) (main_arg3 : FVec F S64x128 .f32) (main_arg4 : FVec F S64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_v13 main_v16
-- ==== Kernel.lean ====
abbrev S65536x512 : Shape := ⟨2, ![65536, 512]⟩
abbrev S128x512 : Shape := ⟨2, ![128, 512]⟩
abbrev S128 : Shape := ⟨1, ![128]⟩
abbrev S64x128 : Shape := ⟨2, ![64, 128]⟩
abbrev S64 : Shape := ⟨1, ![64]⟩
abbrev S512x128 : Shape := ⟨2, ![512, 128]⟩
abbrev S128x64 : Shape := ⟨2, ![128, 64]⟩
abbrev S1x128 : Shape := ⟨2, ![1, 128]⟩
abbrev S1x64 : Shape := ⟨2, ![1, 64]⟩
abbrev S65536x64 : Shape := ⟨2, ![65536, 64]⟩
abbrev S4096x512 : Shape := ⟨2, ![4096, 512]⟩
abbrev S4096x64 : Shape := ⟨2, ![4096, 64]⟩
abbrev S4096x128 : Shape := ⟨2, ![4096, 128]⟩

abbrev nBuf : Space → Nat
  | .hbm => 12
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S128x512, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S512x128, .f32⟩
  | .hbm, ⟨6, _⟩ => ⟨S512x128, .bf16⟩
  | .hbm, ⟨7, _⟩ => ⟨S128x64, .f32⟩
  | .hbm, ⟨8, _⟩ => ⟨S128x64, .bf16⟩
  | .hbm, ⟨9, _⟩ => ⟨S1x128, .f32⟩
  | .hbm, ⟨10, _⟩ => ⟨S1x64, .f32⟩
  | .hbm, ⟨11, _⟩ => ⟨S65536x64, .f32⟩
  | .local _ .vmem, ⟨0, _⟩ => ⟨S4096x512, .f32⟩
  | .local _ .vmem, ⟨1, _⟩ => ⟨S4096x512, .f32⟩
  | .local _ .vmem, ⟨2, _⟩ => ⟨S512x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S4096x64, .f32⟩
  | .local _ .vmem, ⟨7, _⟩ => ⟨S4096x64, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512_S512x128_1_0 : S128x512.Transposes [1, 0] S512x128
  bitsLt_bf16_f32 : FTy.bits .bf16 < FTy.bits .f32
  transposes_S64x128_S128x64_1_0 : S64x128.Transposes [1, 0] S128x64
  shapeCasts_S128_S1x128 : S128.ShapeCasts S1x128
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  dot_S4096x512_S512x128_S4096x128_1_0_0_1_n_n_wf : DotDims.WF S4096x512 S512x128 S4096x128 [1] [0] [0] [1] [] []
  dot_S4096x128_S128x64_S4096x64_1_0_0_1_n_n_wf : DotDims.WF S4096x128 S128x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S65536x64.size a
  hwx0_5 : ∀ i : grid0.Coords, EltTy.bits .f32 = 32 ∨ (Rect.block (s := S65536x64) S4096x64.size (cc0_transform_5 i) (hinb0_5 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S128x512 : Shape := ⟨2, ![128, 512]⟩
abbrev S128 : Shape := ⟨1, ![128]⟩
abbrev S64x128 : Shape := ⟨2, ![64, 128]⟩
abbrev S64 : Shape := ⟨1, ![64]⟩
abbrev S65536x128 : Shape := ⟨2, ![65536, 128]⟩
abbrev S1x128 : Shape := ⟨2, ![1, 128]⟩
abbrev S_ : Shape := ⟨0, ![]⟩
abbrev S65536x64 : Shape := ⟨2, ![65536, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S128x512, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S65536x128, .f32⟩
  | .hbm, ⟨6, _⟩ => ⟨S1x128, .f32⟩
  | .hbm, ⟨7, _⟩ => ⟨S65536x128, .f32⟩
  | .hbm, ⟨8, _⟩ => ⟨S65536x128, .f32⟩
  | .hbm, ⟨9, _⟩ => ⟨S_, .f32⟩
  | .hbm, ⟨10, _⟩ => ⟨S65536x128, .f32⟩
  | .hbm, ⟨11, _⟩ => ⟨S65536x128, .f32⟩
  | .hbm, ⟨12, _⟩ => ⟨S65536x64, .f32⟩
  | .hbm, ⟨13, _⟩ => ⟨S1x64, .f32⟩
  | .hbm, ⟨14, _⟩ => ⟨S65536x64, .f32⟩
  | .hbm, ⟨15, _⟩ => ⟨S65536x64, .f32⟩
  | .hbm, ⟨16, _⟩ => ⟨S_, .f32⟩
  | .hbm, ⟨17, _⟩ => ⟨S65536x64, .f32⟩
  | .hbm, ⟨18, _⟩ => ⟨S65536x64, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  dot_S65536x512_S128x512_S65536x128_1_1_0_0_n_n_wf : DotDims.WF S65536x512 S128x512 S65536x128 [1] [1] [0] [0] [] []
  dot_S65536x128_S64x128_S65536x64_1_1_0_0_n_n_wf : DotDims.WF S65536x128 S64x128 S65536x64 [1] [1] [0] [0] [] []

variable [Facts₀]

def dot_S65536x512_S128x512_S65536x128_1_1_0_0_n_n : DotDims S65536x512 S128x512 S65536x128 where
  lhsContracting := [1]
  rhsContracting := [1]
  lhsNonContracting := [0]
  rhsNonContracting := [0]
  lhsBatch := []
  rhsBatch := []
  wf := dot_S65536x512_S128x512_S65536x128_1_1_0_0_n_n_wf
def dot_S65536x128_S64x128_S65536x64_1_1_0_0_n_n : DotDims S65536x128 S64x128 S65536x64 where
  lhsContracting := [1]
  rhsContracting := [1]
  lhsNonContracting := [0]
  rhsNonContracting := [0]
  lhsBatch := []
  rhsBatch := []
  wf := dot_S65536x128_S64x128_S65536x64_1_1_0_0_n_n_wf

class Facts : Prop extends Facts₀ where

variable [Facts]
-- ==== Proof.LibRank3Layout.lean ====
/-
  Rank-3 stacks read at an index: the layout operations, the reductions over the last axis and the plain matrix
  product that a kernel working on a stack [a, b, c] of rows meets, each read at explicit coordinates.

  A matrix [a, b] viewed as [a, b, 1] or as [a, 1, b] keeps its entries; a stack [a, b, c] flattened to [a·b, c] puts row
  (i, j) at flat row i·b + j, and back; a column stack [a, b, 1] or a row stack [a, 1, c] broadcast to [a, b, c] repeats its
  entries along the unit axis. A sum or a maximum over the last axis of a stack, read at (i, j), is the sum or the fold of
  `max` over the entries (i, j, l). The plain product of an m×k by a k×n matrix into a zero accumulator, read at (r, h), is
  the sum over the contracted coordinate of the products of the entries. The reductions and the product are at the ideal values.
-/
import Idealize.ShloMosaic.PureOps.Ideal.Laws
import Idealize.ShloMosaic.Lib.ValueIdx
import Idealize.ShloMosaic.Lib.Pipeline.Value

noncomputable section

namespace Idealize.ShloMosaic.Rank3Layout

open Idealize.ShloMosaic Idealize.ShloMosaic.ValueIdx

variable {α : Type}

/-! ## Unit axes added to a matrix -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A stack flattened to a matrix, and back -/

/-- An `[a, b, c]` array cast to `[n, c]` reads, at `(r, l)` with `r = i·b + j`, the operand at `(i, j, l)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) : shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

/-- An `[n, c]` array cast to `[a, b, c]` reads, at `(i, j, l)`, the operand at `(r, l)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) : shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

/-! ## A unit axis broadcast -/

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-! ## Reductions over the last axis, at the ideal values -/

/-- The index over `(i, j)` with `l` put on the dropped last axis is `(i, j, l)`. -/
theorem lift_last {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- A sum over the last axis of a stack, read at `(i, j)`, is the sum of the entries `(i, j, l)`. -/
theorem multiReduction_add_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) := by
  refine (Ideal.multiReduction_add_single src acc h hφ hacc (ix2 i j)).trans ?_
  show ∑ l : Fin c, src (h.lift (ix2 i j) l) = _
  exact Finset.sum_congr rfl fun l _ => congrArg src (lift_last h i j l)

/-- A maximum over the last axis of a stack, read at `(i, j)`, is the fold of `max`, from the accumulator's value, over the
    entries `(i, j, l)`. -/
theorem multiReduction_maximumf_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun l => src (ix3 i j l)) := by
  refine (Ideal.multiReduction_maximumf_single src acc h hφ hacc (ix2 i j)).trans ?_
  show (Finset.univ : Finset (Fin c)).fold max (Ideal.ofBits φ acc) (fun l => src (h.lift (ix2 i j) l)) = _
  exact congrArg (fun f : Fin c → EReal => (Finset.univ : Finset (Fin c)).fold max (Ideal.ofBits φ acc) f)
    (funext fun l => congrArg src (lift_last h i j l))

/-! ## The plain matrix product into a zero accumulator, at the ideal values -/

/-- A kernel's product of an m×k by a k×n matrix into the zero accumulator, read at `(r, h)`. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply,
    ← Equiv.sum_comp (contrEquiv1 (⟨[1], [0], [0], [1], [], [], w⟩ : DotDims _ _ _) k rfl rfl).symm]
  refine Finset.sum_congr rfl fun l _ => ?_
  have c2 := contrEquiv1_symm_val
    (⟨[1], [0], [0], [1], [], [], w⟩ : DotDims ⟨2, ![m, k]⟩ ⟨2, ![k, n]⟩ ⟨2, ![m, n]⟩) k rfl rfl l
  have l2 : (⟨[1], [0], [0], [1], [], [], w⟩ : DotDims ⟨2, ![m, k]⟩ ⟨2, ![k, n]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r h)
      ((contrEquiv1 _ k rfl rfl).symm l) = ix2 l h := by
    funext ax; apply Fin.ext
    match ax with
    | ⟨0, _⟩ => simp [DotDims.rhsIdx]; exact c2
    | ⟨1, _⟩ => simp [DotDims.rhsIdx]; rfl
  rw [l2, r2]

end Idealize.ShloMosaic.Rank3Layout

end
-- ==== Proof.Spec.lean ====
/-
  A two-layer perceptron with rectifier units, read one row at a time.

  Hidden unit j of a row xr of 512 inputs is  max (Σ_k xr k · w1 j k + c1 j) 0,  and output unit o of that row is
  max (Σ_j hidden j · w2 o j + c2 o) 0.  On a batch the network treats every row by itself: entry (b, o) of the
  result depends on row b of the batch and on the weights alone.  The weights enter as plain functions of their two
  coordinates, so the same row function reads a weight matrix stored either way round.
-/
import Idealize.ShloMosaic.PureOps.Ideal
import Idealize.ShloMosaic.Lib.ValueIdx

noncomputable section

namespace Cert.TwoLayer

open Idealize.ShloMosaic Idealize.ShloMosaic.ValueIdx

/-- The rectifier's threshold: the float word of zero, read at the ideal values. -/
abbrev floor0 : EReal := Ideal.ofBits .f32 0x00000000#32

/-- Hidden unit `j` of one row: the rectified affine form of the row's 512 inputs. -/
def hiddenUnit (xr : Fin 512 → EReal) (w1 : Fin 128 → Fin 512 → EReal) (c1 : Fin 128 → EReal) (j : Fin 128) : EReal :=
  max (∑ k : Fin 512, xr k * w1 j k + c1 j) floor0

/-- Output unit `o` of one row: the rectified affine form of the row's 128 hidden units. -/
def outUnit (xr : Fin 512 → EReal) (w1 : Fin 128 → Fin 512 → EReal) (c1 : Fin 128 → EReal)
    (w2 : Fin 64 → Fin 128 → EReal) (c2 : Fin 64 → EReal) (o : Fin 64) : EReal :=
  max (∑ j : Fin 128, hiddenUnit xr w1 c1 j * w2 o j + c2 o) floor0

/-- Entry `(b, o)` of the network's result: output unit `o` of row `b` of the batch, the first-layer weights stored
    as [hidden, input] and the second-layer weights as [output, hidden]. -/
def netAt (X : FVec Ideal ⟨2, ![65536, 512]⟩ .f32) (W1 : FVec Ideal ⟨2, ![128, 512]⟩ .f32) (b1 : FVec Ideal ⟨1, ![128]⟩ .f32)
    (W2 : FVec Ideal ⟨2, ![64, 128]⟩ .f32) (b2 : FVec Ideal ⟨1, ![64]⟩ .f32) (b : Fin 65536) (o : Fin 64) : EReal :=
  outUnit (fun k => X (ix2 b k)) (fun j k => W1 (ix2 j k)) (fun j => b1 (ix1 j)) (fun o j => W2 (ix2 o j)) (fun o => b2 (ix1 o)) o

/-- The network on the whole batch, as an array of 65536 rows of 64 outputs. -/
def net (X : FVec Ideal ⟨2, ![65536, 512]⟩ .f32) (W1 : FVec Ideal ⟨2, ![128, 512]⟩ .f32) (b1 : FVec Ideal ⟨1, ![128]⟩ .f32)
    (W2 : FVec Ideal ⟨2, ![64, 128]⟩ .f32) (b2 : FVec Ideal ⟨1, ![64]⟩ .f32) : FVec Ideal ⟨2, ![65536, 64]⟩ .f32 :=
  fun i => netAt X W1 b1 W2 b2 (i 0) (i 1)

/-- The array at the pair `(b, o)` is the entry. -/
theorem net_ix2 (X : FVec Ideal ⟨2, ![65536, 512]⟩ .f32) (W1 : FVec Ideal ⟨2, ![128, 512]⟩ .f32) (b1 : FVec Ideal ⟨1, ![128]⟩ .f32)
    (W2 : FVec Ideal ⟨2, ![64, 128]⟩ .f32) (b2 : FVec Ideal ⟨1, ![64]⟩ .f32) (b : Fin 65536) (o : Fin 64) :
    net X W1 b1 W2 b2 (ix2 b o) = netAt X W1 b1 W2 b2 b o := rfl

end Cert.TwoLayer

end
-- ==== Proof.Payload.lean ====
/-
  What one grid step of the kernel computes, entry by entry.

  The step holds a block of 4096 rows of the batch, the first-layer weights stored [input, hidden], the second-layer
  weights stored [hidden, output], and the two biases as single rows.  A dense layer on the block — the product with the
  weights into a zero accumulator, the bias row repeated down the block, the maximum with zero — read at (r, h) is
  max (Σ_l A(r,l)·B(l,h) + bias(0,h)) 0.  Two such layers, the second fed by the first (the narrowing of the operands to
  bf16 changes nothing at the ideal values), give at (r, o) output unit o of row r of the block.
-/
import proofs.«425726_j81071802679749_3_alg».proof.Proof.Gen.KernelIdeal.Skeleton
import proofs.«425726_j81071802679749_3_alg».proof.Proof.LibRank3Layout
import proofs.«425726_j81071802679749_3_alg».proof.Proof.Spec
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.TwoLayer

/-- A dense layer with rectifier on a block of `m` rows, read at `(r, h)`. -/
theorem dense_relu_apply {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (bias : FVec Ideal ⟨2, ![1, n]⟩ .f32)
    (hb : (⟨2, ![1, n]⟩ : Shape).Broadcasts ⟨2, ![m, n]⟩) (r : Fin m) (h : Fin n) :
    maximumf (addf (matmul (⟨[1], [0], [0], [1], [], [], w⟩ : DotDims _ _ _) none A B (constant ⟨2, ![m, n]⟩ .f32 0x00000000#32))
        (broadcastTo ⟨2, ![m, n]⟩ bias hb)) (broadcast ⟨2, ![m, n]⟩ (Scalar.ofBits (F := Ideal) .f32 0x00000000#32)) (ix2 r h)
      = max (∑ l : Fin k, A (ix2 r l) * B (ix2 l h) + bias (ix2 (0 : Fin 1) h)) floor0 := by
  show max (FloatOps.matmul (⟨[1], [0], [0], [1], [], [], w⟩ : DotDims _ _ _) none A B (constant ⟨2, ![m, n]⟩ .f32 0x00000000#32) (ix2 r h)
      + broadcastTo ⟨2, ![m, n]⟩ bias hb (ix2 r h)) floor0 = _
  rw [Rank3Layout.matmul_plain_apply, broadcastTo_1b_ab_apply]

/-- The stored block at `(r, o)` is output unit `o` of row `r` of the input block. -/
theorem payload_apply (x0 : FVec Ideal S4096x512 .f32) (x1 : FVec Ideal S512x128 .bf16) (x2 : FVec Ideal S1x128 .f32)
    (x3 : FVec Ideal S128x64 .bf16) (x4 : FVec Ideal S1x64 .f32) (r : Fin 4096) (o : Fin 64) :
    k0_pay1 (F := Ideal) x0 x1 x2 x3 x4 (ix2 r o)
      = outUnit (fun k => x0 (ix2 r k)) (fun j k => x1 (ix2 k j)) (fun j => x2 (ix2 (0 : Fin 1) j))
          (fun o j => x3 (ix2 j o)) (fun o => x4 (ix2 (0 : Fin 1) o)) o := by
  unfold k0_pay1
  simp only [shapeCast_self]
  refine (dense_relu_apply _ _ _ _ _ r o).trans ?_
  unfold outUnit
  refine congrArg (fun s => max (s + x4 (ix2 (0 : Fin 1) o)) floor0) (Finset.sum_congr rfl fun l _ => ?_)
  refine congrArg (· * x3 (ix2 l o)) ?_
  exact dense_relu_apply _ _ _ _ _ r l

end Cert.KernelIdeal.Hand

end
-- ==== Proof.Blocks.lean ====
/-
  From the grid steps to the whole result array.

  Step t of the 16 holds rows 4096·t … 4096·t + 4095 of the batch and writes the same rows of the result; the weights and
  biases it holds are the whole arrays the host prepared before the launch: the first-layer weights transposed to
  [input, hidden], the second-layer weights transposed to [hidden, output] (their narrowing to bf16 is the identity at the
  ideal values), and each bias laid out as a single row.  So what step t writes back is its block of rows of the
  network's result, and the 16 blocks tile the 65536 rows: after the run the result array is the network of the arguments.
-/
import proofs.«425726_j81071802679749_3_alg».proof.Proof.Gen.KernelIdeal.Value
import proofs.«425726_j81071802679749_3_alg».proof.Proof.Payload
import Idealize.ShloMosaic.Lib.ValueLayout
import Idealize.ShloMosaic.Lib.StableHlo.Run

set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.TwoLayer
open Idealize.ShloMosaic.Pipeline (Dat)

variable (m : (ℓ : Loc nD τ sig) → Buf (Elt Ideal) ℓ) (ρ : Dev nD → PrngReg)

/-- The network of the arguments as launched, on core `c`. -/
abbrev result (c : Dev nD) : Buf (Elt Ideal) ((c : Thread nD τ).loc main_v6) :=
  net (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-! ## What the host laid out before the launch -/

theorem w1t_eq (c : Dev nD) : (V m c main_v1 : S512x128.Idx → EReal)
    = truncf (F := Ideal) .bf16 (transpose S512x128 [1, 0] (m ((c : Thread nD τ).loc main_arg1) : S128x512.Idx → EReal) transposes_S128x512_S512x128_1_0) bitsLt_bf16_f32 := by
  dsimp only [Gen.V, Gen.hostOps0]
  after_results

theorem w2t_eq (c : Dev nD) : (V m c main_v3 : S128x64.Idx → EReal)
    = truncf (F := Ideal) .bf16 (transpose S128x64 [1, 0] (m ((c : Thread nD τ).loc main_arg3) : S64x128.Idx → EReal) transposes_S64x128_S128x64_1_0) bitsLt_bf16_f32 := by
  dsimp only [Gen.V, Gen.hostOps0]
  after_results

theorem b1row_eq (c : Dev nD) : (V m c main_v4 : S1x128.Idx → EReal)
    = shapeCast S1x128 (m ((c : Thread nD τ).loc main_arg2) : S128.Idx → EReal) shapeCasts_S128_S1x128 := by
  dsimp only [Gen.V, Gen.hostOps0]
  after_results
  rfl

theorem b2row_eq (c : Dev nD) : (V m c main_v5 : S1x64.Idx → EReal)
    = shapeCast S1x64 (m ((c : Thread nD τ).loc main_arg4) : S64.Idx → EReal) shapeCasts_S64_S1x64 := by
  dsimp only [Gen.V, Gen.hostOps0]
  after_results
  rfl

/-! ## Where each step's blocks sit -/

/-- The block indices of the six windows at step `t`, decided over the 16 steps: the batch and the result move with the
    step along the rows, everything else stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of step `t`'s batch block is row `4096·t + r` of the batch. -/
theorem x_block (c : Dev nD) (t : Fin cfg0.N) (r : Fin 4096) (k : Fin 512) (b : Fin 65536) (hb : b.val = t.val * 4096 + r.val) :
    (iblk m c 0 t : FVec Ideal S4096x512 .f32) (ix2 r k) = (m ((c : Thread nD τ).loc main_arg0) : S65536x512.Idx → EReal) (ix2 b k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * r.val = b.val; rw [e0, hb]; omega
  | ⟨1, _⟩ => show win0_0.index t (1 : Fin 2) * 512 + 1 * k.val = k.val; rw [e1]; omega

/-- The first-layer weights every step holds are the argument's, transposed. -/
theorem w1_block (c : Dev nD) (t : Fin cfg0.N) (k : Fin 512) (j : Fin 128) :
    (iblk m c 1 t : FVec Ideal S512x128 .bf16) (ix2 k j) = (m ((c : Thread nD τ).loc main_arg1) : S128x512.Idx → EReal) (ix2 j k) := by
  obtain ⟨-, -, e0, e1, -⟩ := idx_facts t
  unfold iblk
  rw [View.read_apply]
  show (V m c main_v1 : S512x128.Idx → EReal) _ = _
  rw [w1t_eq]
  have hi : ((cfg0.win 1).blk t).view.emb (ix2 k j) = (ix2 k j : S512x128.Idx) := funext fun a => Fin.ext (by
    match a with
    | ⟨0, _⟩ => show win0_1.index t (0 : Fin 2) * 512 + 1 * k.val = k.val; rw [e0]; omega
    | ⟨1, _⟩ => show win0_1.index t (1 : Fin 2) * 128 + 1 * j.val = j.val; rw [e1]; omega)
  rw [hi]
  exact transpose_ix2_apply _ _ k j

/-- The second-layer weights every step holds are the argument's, transposed. -/
theorem w2_block (c : Dev nD) (t : Fin cfg0.N) (j : Fin 128) (o : Fin 64) :
    (iblk m c 3 t : FVec Ideal S128x64 .bf16) (ix2 j o) = (m ((c : Thread nD τ).loc main_arg3) : S64x128.Idx → EReal) (ix2 o j) := by
  obtain ⟨-, -, -, -, -, -, e0, e1, -⟩ := idx_facts t
  unfold iblk
  rw [View.read_apply]
  show (V m c main_v3 : S128x64.Idx → EReal) _ = _
  rw [w2t_eq]
  have hi : ((cfg0.win 3).blk t).view.emb (ix2 j o) = (ix2 j o : S128x64.Idx) := funext fun a => Fin.ext (by
    match a with
    | ⟨0, _⟩ => show win0_3.index t (0 : Fin 2) * 128 + 1 * j.val = j.val; rw [e0]; omega
    | ⟨1, _⟩ => show win0_3.index t (1 : Fin 2) * 64 + 1 * o.val = o.val; rw [e1]; omega)
  rw [hi]
  exact transpose_ix2_apply _ _ j o

/-- The first bias row every step holds is the argument, entry for entry. -/
theorem b1_block (c : Dev nD) (t : Fin cfg0.N) (j : Fin 128) :
    (iblk m c 2 t : FVec Ideal S1x128 .f32) (ix2 (0 : Fin 1) j) = (m ((c : Thread nD τ).loc main_arg2) : S128.Idx → EReal) (ix1 j) := by
  obtain ⟨-, -, -, -, e0, e1, -⟩ := idx_facts t
  unfold iblk
  rw [View.read_apply]
  show (V m c main_v4 : S1x128.Idx → EReal) _ = _
  rw [b1row_eq]
  have hi : ((cfg0.win 2).blk t).view.emb (ix2 (0 : Fin 1) j) = (ix2 (0 : Fin 1) j : S1x128.Idx) := funext fun a => Fin.ext (by
    match a with
    | ⟨0, _⟩ => show win0_2.index t (0 : Fin 2) * 1 + 1 * 0 = 0; rw [e0]
    | ⟨1, _⟩ => show win0_2.index t (1 : Fin 2) * 128 + 1 * j.val = j.val; rw [e1]; omega)
  rw [hi]
  exact shapeCast_a_1a_apply _ _ 0 j

/-- The second bias row every step holds is the argument, entry for entry. -/
theorem b2_block (c : Dev nD) (t : Fin cfg0.N) (o : Fin 64) :
    (iblk m c 4 t : FVec Ideal S1x64 .f32) (ix2 (0 : Fin 1) o) = (m ((c : Thread nD τ).loc main_arg4) : S64.Idx → EReal) (ix1 o) := by
  obtain ⟨-, -, -, -, -, -, -, -, e0, e1, -⟩ := idx_facts t
  unfold iblk
  rw [View.read_apply]
  show (V m c main_v5 : S1x64.Idx → EReal) _ = _
  rw [b2row_eq]
  have hi : ((cfg0.win 4).blk t).view.emb (ix2 (0 : Fin 1) o) = (ix2 (0 : Fin 1) o : S1x64.Idx) := funext fun a => Fin.ext (by
    match a with
    | ⟨0, _⟩ => show win0_4.index t (0 : Fin 2) * 1 + 1 * 0 = 0; rw [e0]
    | ⟨1, _⟩ => show win0_4.index t (1 : Fin 2) * 64 + 1 * o.val = o.val; rw [e1]; omega)
  rw [hi]
  exact shapeCast_a_1a_apply _ _ 0 o

/-! ## What a step writes back, and the whole array -/

/-- An output unit depends on its row and weights through their entries only. -/
theorem outUnit_congr {xr xr' : Fin 512 → EReal} {w1 w1' : Fin 128 → Fin 512 → EReal} {c1 c1' : Fin 128 → EReal}
    {w2 w2' : Fin 64 → Fin 128 → EReal} {c2 c2' : Fin 64 → EReal}
    (h0 : ∀ k, xr k = xr' k) (h1 : ∀ j k, w1 j k = w1' j k) (h2 : ∀ j, c1 j = c1' j) (h3 : ∀ o j, w2 o j = w2' o j)
    (h4 : ∀ o, c2 o = c2' o) (o : Fin 64) : outUnit xr w1 c1 w2 c2 o = outUnit xr' w1' c1' w2' c2' o := by
  rw [show xr = xr' from funext h0, show w1 = w1' from funext fun j => funext (h1 j), show c1 = c1' from funext h2,
    show w2 = w2' from funext fun o => funext (h3 o), show c2 = c2' from funext h4]

/-- Step `t` writes back its block of rows of the network's result. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S4096x512) hz, View.ld_unit_zero (S := S512x128) hz, View.ld_unit_zero (S := S1x128) hz,
    View.ld_unit_zero (S := S128x64) hz, View.ld_unit_zero (S := S1x64) hz]
  obtain ⟨-, -, -, -, -, -, -, -, -, -, e0, e1⟩ := idx_facts t
  have hN : cfg0.N = 16 := N_0
  have htN : t.val < 16 := hN ▸ t.isLt
  funext (j : S4096x64.Idx)
  obtain ⟨r, o, rfl⟩ : ∃ (r : Fin 4096) (o : Fin 64), j = ix2 r o := ⟨j 0, j 1, eq_ix2 j⟩
  have hlt : t.val * 4096 + r.val < 65536 := by have := r.isLt; omega
  have hi : ((cfg0.win 5).blk t).view.emb (ix2 r o) = (ix2 (⟨t.val * 4096 + r.val, hlt⟩ : Fin 65536) o : S65536x64.Idx) :=
    funext fun a => Fin.ext (by
      match a with
      | ⟨0, _⟩ => show win0_5.index t (0 : Fin 2) * 4096 + 1 * r.val = t.val * 4096 + r.val; rw [e0]; omega
      | ⟨1, _⟩ => show win0_5.index t (1 : Fin 2) * 64 + 1 * o.val = o.val; rw [e1]; omega)
  show k0_pay1 (iblk m c 0 t) (iblk m c 1 t) (iblk m c 2 t) (iblk m c 3 t) (iblk m c 4 t) (ix2 r o)
    = result m c (((cfg0.win 5).blk t).view.emb (ix2 r o))
  rw [hi]
  refine (payload_apply (iblk m c 0 t) (iblk m c 1 t) (iblk m c 2 t) (iblk m c 3 t) (iblk m c 4 t) r o).trans ?_
  exact outUnit_congr (fun k => x_block m c t r k _ rfl) (fun j k => w1_block m c t k j) (fun j => b1_block m c t j)
    (fun o j => w2_block m c t j o) (fun o => b2_block m c t o) o

/-- A row-and-column pair is in step `t`'s block of the result iff each coordinate is in the block's range. -/
theorem mem_blk (t : Fin cfg0.N) (i : S65536x64.Idx) :
    i ∈ ((cfg0.win 5).blk t).view.set ↔ ∀ a : Fin 2, win0_5.index t a * S4096x64.size a ≤ (i a).val ∧ (i a).val < win0_5.index t a * S4096x64.size a + S4096x64.size a := by
  show i ∈ ((View.whole main_v6).slice (win0_5.rect t)).set ↔ _
  rw [View.set_slice_whole, Rect.mem_set_unit]
  exact Iff.rfl

/-- Row `b` of the result is written by step `b / 4096`: the 16 blocks tile the 65536 rows. -/
theorem cover (i : S65536x64.Idx) : ∃ t : Fin cfg0.N, (cfg0.win 5).flush t = true ∧ i ∈ ((cfg0.win 5).blk t).view.set := by
  have h0 : (i 0).val < 65536 := (i 0).isLt
  have h1 : (i 1).val < 64 := (i 1).isLt
  have hN : cfg0.N = 16 := N_0
  obtain ⟨t, ht⟩ : ∃ t : Fin cfg0.N, t.val = (i 0).val / 4096 := ⟨⟨(i 0).val / 4096, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 4096 ≤ (i 0).val ∧ (i 0).val < win0_5.index t (0 : Fin 2) * 4096 + 4096
    rw [e0, ht]; omega
  | ⟨1, _⟩ =>
    show win0_5.index t (1 : Fin 2) * 64 ≤ (i 1).val ∧ (i 1).val < win0_5.index t (1 : Fin 2) * 64 + 64
    rw [e1]; omega

/-- After the run the result array is the network of the arguments. -/
theorem final (c : Dev nD) : (dats m 0 c).arrAt 5 cfg0.N = result m c :=
  (dats m 0 c).arrAt_eq_of_cover 5 (result m c) (fun t _ => flushed_eq m c t) cover

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.RefIsNet.lean ====
/-
  The reference program computes the two-layer network.

  Its operations, read one at a time at an output index (b, o): the first contraction pairs row b of the batch with row j
  of the first-layer weights, the bias row is repeated down the batch, the rectifier is the maximum with the zero word;
  the second contraction pairs the 128 hidden units of row b with row o of the second-layer weights, and again bias and
  rectifier.  Term by term this is `outUnit` of row b.
-/
import proofs.«425726_j81071802679749_3_alg».proof.Proof.Gen.ReferenceIdeal.Read
import proofs.«425726_j81071802679749_3_alg».proof.Proof.Spec

noncomputable section

namespace Cert.ReferenceIdeal.RefValue

open Cert.ReferenceIdeal Cert.ReferenceIdeal.Read Idealize.ShloMosaic Idealize.ShloMosaic.ValueIdx Cert.TwoLayer

/-- The reference's result, as a function of its five arguments, is the network. -/
theorem ref_is_net (x0 : FVec Ideal S65536x512 .f32) (x1 : FVec Ideal S128x512 .f32) (x2 : FVec Ideal S128 .f32)
    (x3 : FVec Ideal S64x128 .f32) (x4 : FVec Ideal S64 .f32) :
    val_main_v9 (F := Ideal) x0 x1 x2 x3 x4 = net x0 x1 x2 x3 x4 := by
  funext i
  obtain ⟨b, o, rfl⟩ : ∃ (b : Fin 65536) (o : Fin 64), i = ix2 b o := ⟨i 0, i 1, eq_ix2 i⟩
  -- the coordinates each operation reads, as pairs
  have eL5 : ∀ k : Fin 128, lidx_main_v5 (ix2 b o) k = ix2 b k := fun k =>
    funext fun a => Fin.ext (by match a with | ⟨0, _⟩ => rfl | ⟨1, _⟩ => rfl)
  have eR5 : ∀ k : Fin 128, ridx_main_v5 (ix2 b o) k = ix2 o k := fun k =>
    funext fun a => Fin.ext (by match a with | ⟨0, _⟩ => rfl | ⟨1, _⟩ => rfl)
  have eL0 : ∀ (j : Fin 128) (k : Fin 512), lidx_main_v0 (ix2 b j) k = ix2 b k := fun j k =>
    funext fun a => Fin.ext (by match a with | ⟨0, _⟩ => rfl | ⟨1, _⟩ => rfl)
  have eR0 : ∀ (j : Fin 128) (k : Fin 512), ridx_main_v0 (ix2 b j) k = ix2 j k := fun j k =>
    funext fun a => Fin.ext (by match a with | ⟨0, _⟩ => rfl | ⟨1, _⟩ => rfl)
  have eB1 : ∀ j : Fin 128, idx_main_v1 (idx_main_v2 (ix2 b j)) = ix1 j := fun j =>
    funext fun a => Fin.ext (by match a with | ⟨0, _⟩ => rfl)
  have eB2 : idx_main_v6 (idx_main_v7 (ix2 b o)) = ix1 o :=
    funext fun a => Fin.ext (by match a with | ⟨0, _⟩ => rfl)
  rw [net_ix2, val_main_v9_apply, val_main_v8_apply, val_main_v5_apply, val_main_v7_apply, val_main_v6_apply,
    val_main_call1_v0_apply, val_main_call1_cst_apply, eB2]
  unfold netAt outUnit
  refine congrArg (fun s => max (s + x4 (ix1 o)) floor0) (Finset.sum_congr rfl fun k _ => ?_)
  rw [eL5, eR5]
  refine congrArg (· * x3 (ix2 o k)) ?_
  rw [val_main_v4_apply, val_main_v3_apply, val_main_v0_apply, val_main_v2_apply, val_main_v1_apply,
    val_main_call0_v0_apply, val_main_call0_cst_apply, eB1]
  unfold hiddenUnit
  refine congrArg (fun s => max (s + x2 (ix1 k)) floor0) (Finset.sum_congr rfl fun l _ => ?_)
  rw [eL0, eR0]

end Cert.ReferenceIdeal.RefValue

end
-- ==== Proof.lean ====
/-
  The kernel and its reference compute the same two-layer network.

  Both programs take a batch of 65536 rows of 512 inputs, first-layer weights [128, 512] with 128 biases and second-layer
  weights [64, 128] with 64 biases, and return for every row its 64 output units
      max (Σ_j max (Σ_k x(b,k)·W1(j,k) + b1(j)) 0 · W2(o,j) + b2(o)) 0.
  The reference forms the two contractions over whole arrays.  The kernel walks the batch in 16 blocks of 4096 rows with
  the weights transposed beforehand; a row's outputs depend on that row alone, so block by block it fills in the same
  array (`Hand.run`), and the reference's operations read one at a time give that array too (`RefValue.ref_is_net`).
  Over the extended reals the sums on the two sides are the same sums term by term, so no finiteness of the inputs is used.
  The idealized kernel is the kernel's own text read at the ideal values (no rewrite was applied), which is all that the
  fourth claim asks; the three frame claims are the generated frame runs and the reference's generated run.
-/
import proofs.«425726_j81071802679749_3_alg».proof.Defs
import proofs.«425726_j81071802679749_3_alg».proof.Proof.Gen.Kernel
import proofs.«425726_j81071802679749_3_alg».proof.Proof.Gen.Kernel.Skeleton
import proofs.«425726_j81071802679749_3_alg».proof.Proof.Gen.Kernel.Launch
import proofs.«425726_j81071802679749_3_alg».proof.Proof.Gen.Kernel.Points
import proofs.«425726_j81071802679749_3_alg».proof.Proof.Gen.Kernel.Frame
import proofs.«425726_j81071802679749_3_alg».proof.Proof.Gen.KernelIdeal
import proofs.«425726_j81071802679749_3_alg».proof.Proof.Gen.KernelIdeal.Skeleton
import proofs.«425726_j81071802679749_3_alg».proof.Proof.Gen.KernelIdeal.Launch
import proofs.«425726_j81071802679749_3_alg».proof.Proof.Gen.KernelIdeal.Points
import proofs.«425726_j81071802679749_3_alg».proof.Proof.Gen.KernelIdeal.Frame
import proofs.«425726_j81071802679749_3_alg».proof.Proof.Gen.ReferenceIdeal
import proofs.«425726_j81071802679749_3_alg».proof.Proof.Gen.Pre_finite_inputs
import proofs.«425726_j81071802679749_3_alg».proof.Proof.Gen.KernelIdeal.Value
import proofs.«425726_j81071802679749_3_alg».proof.Proof.Gen.ReferenceIdeal.Run
import proofs.«425726_j81071802679749_3_alg».proof.Proof.Gen.ReferenceIdeal.Read
import proofs.«425726_j81071802679749_3_alg».proof.Proof.Blocks
import proofs.«425726_j81071802679749_3_alg».proof.Proof.RefIsNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the network of the shared arguments in their result arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_net,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
